-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x64 .f32) (main_arg1 : IVec S2x1600000 32) (main_arg2 : IVec S2x1600000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 71
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S50000x64, .f32⟩
  | .hbm, ⟨24, _⟩ => ⟨S1600000x1, .i32⟩
  | .hbm, ⟨25, _⟩ => ⟨S50000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S1x1600000, .i32⟩
  | .hbm, ⟨41, _⟩ => ⟨S1600000, .i32⟩
  | .hbm, ⟨42, _⟩ => ⟨S1x1600000, .i32⟩
  | .hbm, ⟨43, _⟩ => ⟨S1600000, .i32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S50000, .f32⟩
  | .hbm, ⟨61, _⟩ => ⟨S1600000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x64, .f32⟩
  | .hbm, ⟨68, _⟩ => ⟨S50000x64, .f32⟩
  | .hbm, ⟨69, _⟩ => ⟨S1x64, .f32⟩
  | .hbm, ⟨70, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S50000x64, .f32⟩
  | .hbm, ⟨24, _⟩ => ⟨S1600000x1, .i32⟩
  | .hbm, ⟨25, _⟩ => ⟨S50000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S1x1600000, .i32⟩
  | .hbm, ⟨48, _⟩ => ⟨S1600000, .i32⟩
  | .hbm, ⟨49, _⟩ => ⟨S1x1600000, .i32⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S50000, .f32⟩
  | .hbm, ⟨68, _⟩ => ⟨S1600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_call1_v2 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«104332_j45724221833421_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibSageLayer.lean ====
/-
  One layer of a neighbourhood-averaging graph network, as plain functions of matrices of extended reals.

  A layer takes, for every node, the average `a` of its neighbours' features and the node's own features `x`, and
  forms `a · w + x · r + b`: the neighbour branch through `w`, the root branch through `r`, a bias row `b`
  (`pre`). A hidden layer clamps that at zero from below (`hidden`); the output layer scales every row to unit
  Euclidean length, the length clamped from below by a small positive constant so that a zero row stays zero
  (`unitRow`, `output`). Everything is stated entry by entry at the row `p` and the column `q`, and entry `(p, q)`
  depends on `a` and `x` only through their rows `p` (`pre_congr`), so the same functions describe a block of rows
  and the whole matrix.

  The three summands may be added in either order: the extended reals are a commutative monoid under addition, so
  `(a·w + b) + x·r = (a·w + x·r) + b` with no finiteness assumption (`pre_bias_first`).

  Last, the row normalisation as a vector program spells it — the squares summed along the row, set as a column,
  rooted, clamped, laid back over the columns, divided into the entries — read at an index
  (`vector_unitRow_apply`). All are generic in the extents.
-/
import Idealize.ShloMosaic.Lib.Pipeline.Value
import Idealize.ShloMosaic.Lib.ValueIdx
import Idealize.ShloMosaic.Lib.ValueLayout
import Idealize.ShloMosaic.PureOps.Ideal.Laws
import proofs.«104332_j45724221833421_1_alg».proof.Proof.LibColumnLayout
import proofs.«104332_j45724221833421_1_alg».proof.Proof.LibDenseLayer

noncomputable section

namespace Cert.SageLayer

open Idealize.ShloMosaic Idealize.ShloMosaic.ValueIdx Cert.DenseLayer

variable {n K N : ℕ}

/-! ## The layer -/

/-- Row `p` before any activation: the neighbour branch, plus the root branch, plus the bias. -/
def pre (a x : Mat n K) (w r : Mat K N) (b : Fin N → EReal) (p : Fin n) : Fin N → EReal :=
  fun q => prodRow a w p q + prodRow x r p q + b q

/-- A row of the layer depends on the two feature matrices only through that row: matrices of any heights that
    agree along a row of each give the same row. -/
theorem pre_congr {n' : ℕ} (a x : Mat n K) (a' x' : Mat n' K) (w r : Mat K N) (b : Fin N → EReal)
    (p : Fin n) (p' : Fin n') (ha : ∀ k, a (ix2 p k) = a' (ix2 p' k)) (hx : ∀ k, x (ix2 p k) = x' (ix2 p' k)) :
    pre a x w r b p = pre a' x' w r b p' := by
  unfold pre
  rw [prodRow_congr a a' w p p' ha, prodRow_congr x x' r p p' hx]

/-- The bias may be added before the root branch: addition of extended reals is commutative and associative. -/
theorem pre_bias_first (a x : Mat n K) (w r : Mat K N) (b : Fin N → EReal) (p : Fin n) (q : Fin N) :
    prodRow a w p q + b q + prodRow x r p q = pre a x w r b p q :=
  add_right_comm _ _ _

/-- A hidden layer: the row clamped at zero from below (the zero written as the word a program writes). -/
def hidden (a x : Mat n K) (w r : Mat K N) (b : Fin N → EReal) : Mat n N :=
  fun i => max (pre a x w r b (i 0) (i 1)) (Ideal.ofBits .f32 0x00000000#32)

/-- A row scaled to unit length: each entry over the root of the row's sum of squares, that root clamped from
    below by the small positive constant a program writes. -/
def unitRow (h : Fin N → EReal) (q : Fin N) : EReal :=
  Ideal.div (h q) (max (Ideal.sqrt (∑ k : Fin N, h k * h k)) (Ideal.ofBits .f32 0x2B8CBCCC#32))

/-- The output layer: every row scaled to unit length. -/
def output (a x : Mat n K) (w r : Mat K N) (b : Fin N → EReal) : Mat n N :=
  fun i => unitRow (pre a x w r b (i 0)) (i 1)

theorem hidden_apply (a x : Mat n K) (w r : Mat K N) (b : Fin N → EReal) (p : Fin n) (q : Fin N) :
    hidden a x w r b (ix2 p q) = max (pre a x w r b p q) (Ideal.ofBits .f32 0x00000000#32) := rfl

theorem output_apply (a x : Mat n K) (w r : Mat K N) (b : Fin N → EReal) (p : Fin n) (q : Fin N) :
    output a x w r b (ix2 p q) = unitRow (pre a x w r b p) q := rfl

/-! ## A vector program's row normalisation read at an index -/

/-- The entries of `h` over their rows' clamped Euclidean lengths, as a vector program computes them: at `(p, q)`
    it is `unitRow` of row `p` at `q`. -/
theorem vector_unitRow_apply (h : FVec Ideal ⟨2, ![n, N]⟩ .f32)
    (hr : (⟨2, ![n, N]⟩ : Shape).Reduces [1] ⟨1, ![n]⟩) (hc : (⟨1, ![n]⟩ : Shape).ShapeCasts ⟨2, ![n, 1]⟩)
    (hb : (⟨2, ![n, 1]⟩ : Shape).Broadcasts ⟨2, ![n, N]⟩) (hφ : FKind.Formats .f32)
    (hadd : (0x00000000#32 : BitVec 32) = FKind.add.neutral .f32 hφ) (p : Fin n) (q : Fin N) :
    divf h (broadcastTo ⟨2, ![n, N]⟩
        (maximumf (sqrt (shapeCast ⟨2, ![n, 1]⟩ (multiReduction .add [1] ⟨1, ![n]⟩ (mulf h h) 0x00000000#32 hr hφ hadd) hc))
          (broadcast ⟨2, ![n, 1]⟩ (Scalar.ofBits (F := Ideal) .f32 0x2B8CBCCC#32))) hb) (ix2 p q)
      = unitRow (fun k => h (ix2 p k)) q := by
  show Ideal.div (h (ix2 p q)) _ = _
  rw [Cert.ColumnLayout.broadcastTo_a1_ab_apply]
  show Ideal.div (h (ix2 p q))
      (max (Ideal.sqrt (shapeCast ⟨2, ![n, 1]⟩ (multiReduction .add [1] ⟨1, ![n]⟩ (mulf h h) 0x00000000#32 hr hφ hadd) hc
        (ix2 p (0 : Fin 1)))) (Ideal.ofBits .f32 0x2B8CBCCC#32)) = _
  rw [Cert.ColumnLayout.shapeCast_a_a1_apply, Cert.ColumnLayout.multiReduction_add_rows_apply]
  rfl

end Cert.SageLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«104332_j45724221833421_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LayerBodies.lean ====
/-
  The two kernel bodies of the idealized program, read at an index.

  Each body takes a block of 5000 rows of the averaged neighbour features and of the nodes' own features, the two
  64 × 64 weight matrices whole and the bias row, and computes, row by row, the neighbour product plus the root
  product plus the bias. The first body clamps that at zero; the second scales each row to unit Euclidean length.
  At the ideal values a change of float format is the identity, a matrix product into a zero accumulator is the
  row-times-column sum, and a row's sum of squares is the plain sum: so at `(p, q)` the first body is
  `max (pre … p q) 0` and the second `unitRow (pre … p) q`, functions of row `p` of the two feature blocks only.
  `block0_eq` / `block1_eq` restate this against whole arrays whose rows the block's rows are.
-/
import proofs.«104332_j45724221833421_1_alg».proof.Proof.Gen.KernelIdeal.Frame
import proofs.«104332_j45724221833421_1_alg».proof.Proof.LibSageLayer
import proofs.«104332_j45724221833421_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.DenseLayer Cert.SageLayer

theorem hz : (![0, 0] : Fin 2 → Nat) = fun _ => 0 := funext fun a => by fin_cases a <;> rfl

/-- Both products of both regions sum the left operand's columns against the right operand's rows. -/
theorem plain : PlainDot dot_S5000x64_S64x64_S5000x64_1_0_0_1_n_n := plainDot_of_axes _ rfl rfl rfl rfl rfl rfl

/-! ## The hidden layer's body -/

/-- The first region's body at `(p, q)`: the block's row `p` through the two products, plus the bias row, clamped
    at zero. -/
theorem body0_apply (v0 v3 : Vec Ideal S5000x64 .f32) (v5 v7 : Vec Ideal S64x64 .f32) (v9 : Vec Ideal S1x64 .f32)
    (p : Fin 5000) (q : Fin 64) :
    k0_pay1 (F := Ideal) v0 v3 v5 v7 v9 (ix2 p q)
      = max (pre v0 v3 v5 v7 (fun q => v9 (ix2 (0 : Fin 1) q)) p q) (Ideal.ofBits .f32 0x00000000#32) := by
  unfold k0_pay1
  rw [shapeCast_self, shapeCast_self]
  have m1 := matmul_zero_apply plain none (truncf .bf16 v0 bitsLt_bf16_f32) (truncf .bf16 v5 bitsLt_bf16_f32) (ix2 p q)
  have m2 := matmul_zero_apply plain none (truncf .bf16 v3 bitsLt_bf16_f32) (truncf .bf16 v7 bitsLt_bf16_f32) (ix2 p q)
  have b := broadcastTo_1b_ab_apply v9 broadcasts_S1x64_S5000x64 p q
  exact congrArg (fun z => max z (Ideal.ofBits .f32 0x00000000#32)) (congrArg₂ (· + ·) (congrArg₂ (· + ·) m1 m2) b)

/-- A block of rows of the hidden layer: if the block's feature rows are rows of the whole matrices and the weights
    are the whole weights, the body's value at `(p, q)` is the layer's at `(P, q)`, `P` the array's row over `p`. -/
theorem block0_eq (A X : Mat 50000 64) (W R : Mat 64 64) (B : Mat 1 64)
    (x0 x1 : Vec Ideal S5000x64 .f32) (x2 x4 : Vec Ideal S64x64 .f32) (x3 : Vec Ideal S1x64 .f32)
    (p : Fin 5000) (q : Fin 64) (P : Fin 50000)
    (h0 : ∀ k : Fin 64, x0 (ix2 p k) = A (ix2 P k)) (h1 : ∀ k : Fin 64, x1 (ix2 p k) = X (ix2 P k))
    (h2 : x2 = W) (h4 : x4 = R) (h3 : x3 = B) :
    k0_pay1 (F := Ideal) x0 x1 x2 x4 x3 (ix2 p q) = hidden A X W R (fun q => B (ix2 (0 : Fin 1) q)) (ix2 P q) := by
  subst h2 h4 h3
  rw [body0_apply, hidden_apply, pre_congr x0 x1 A X x2 x4 _ p P h0 h1]

/-! ## The output layer's body -/

/-- The second region's body at `(p, q)`: the block's row `p` through the two products, plus the bias row, scaled to
    unit length. -/
theorem body1_apply (v0 v3 : Vec Ideal S5000x64 .f32) (v6 v8 : Vec Ideal S64x64 .f32) (v10 : Vec Ideal S1x64 .f32)
    (p : Fin 5000) (q : Fin 64) :
    k1_pay1 (F := Ideal) v0 v3 v6 v8 v10 (ix2 p q)
      = unitRow (pre v0 v3 v6 v8 (fun q => v10 (ix2 (0 : Fin 1) q)) p) q := by
  unfold k1_pay1
  simp only [shapeCast_self]
  refine (vector_unitRow_apply _ reduces_S5000x64_S5000 shapeCasts_S5000_S5000x1 broadcasts_S5000x1_S5000x64
    (.inl rfl) rfl p q).trans ?_
  refine congrArg (fun h => unitRow h q) (funext fun k => ?_)
  have m1 := matmul_zero_apply plain none (truncf .bf16 v0 bitsLt_bf16_f32) (truncf .bf16 v6 bitsLt_bf16_f32) (ix2 p k)
  have m2 := matmul_zero_apply plain none (truncf .bf16 v3 bitsLt_bf16_f32) (truncf .bf16 v8 bitsLt_bf16_f32) (ix2 p k)
  have b := broadcastTo_1b_ab_apply v10 broadcasts_S1x64_S5000x64 p k
  exact congrArg₂ (· + ·) (congrArg₂ (· + ·) m1 m2) b

/-- A block of rows of the output layer, as for the hidden layer. -/
theorem block1_eq (A X : Mat 50000 64) (W R : Mat 64 64) (B : Mat 1 64)
    (x0 x1 : Vec Ideal S5000x64 .f32) (x2 x4 : Vec Ideal S64x64 .f32) (x3 : Vec Ideal S1x64 .f32)
    (p : Fin 5000) (q : Fin 64) (P : Fin 50000)
    (h0 : ∀ k : Fin 64, x0 (ix2 p k) = A (ix2 P k)) (h1 : ∀ k : Fin 64, x1 (ix2 p k) = X (ix2 P k))
    (h2 : x2 = W) (h4 : x4 = R) (h3 : x3 = B) :
    k1_pay1 (F := Ideal) x0 x1 x2 x4 x3 (ix2 p q) = output A X W R (fun q => B (ix2 (0 : Fin 1) q)) (ix2 P q) := by
  subst h2 h4 h3
  rw [body1_apply, output_apply, pre_congr x0 x1 A X x2 x4 _ p P h0 h1]

end Cert.KernelIdeal.Layers

end
-- ==== Proof.HiddenRegion.lean ====
/-
  The first pallas_call's result array, as one function of the arrays the call finds.

  The call walks ten grid points; point `t` stages rows `5000 t … 5000 t + 4999` of the averaged neighbour
  features and of the nodes' own features, the weights and the bias whole, and writes back the same rows of the
  result. Since a row of the layer depends only on the same row of the two feature arrays, what point `t` writes
  back is block `t` of ONE whole-array function, the hidden layer `G0` of the arrays as the call finds them; the
  ten blocks cover the 50000 rows; so the result array ends holding `G0` (`final0`).
-/
import proofs.«104332_j45724221833421_1_alg».proof.Proof.Gen.KernelIdeal.Frame
import proofs.«104332_j45724221833421_1_alg».proof.Proof.LibSageLayer
import proofs.«104332_j45724221833421_1_alg».proof.Proof.LibPlainDot
import proofs.«104332_j45724221833421_1_alg».proof.Proof.LayerBodies
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.DenseLayer Cert.SageLayer

variable (V : (c : Dev nD) → (b : Ref sig .tc) → Buf (Elt Ideal) ((c : Thread nD τ).loc b))

/-- The printed index maps, decided over the grid: the two feature windows move with the output window, one block of
    rows per point; the weights and the bias stay at block zero. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the region finds, by their literal types: the averaged neighbour features, the nodes' own features,
    the two weight matrices and the bias row. -/
abbrev aggIn0 (c : Dev nD) : Mat 50000 64 := V c main_v22
abbrev featIn0 (c : Dev nD) : Mat 50000 64 := V c main_arg0
abbrev wIn0 (c : Dev nD) : Mat 64 64 := V c main_arg3
abbrev biasIn0 (c : Dev nD) : Mat 1 64 := V c main_v23
abbrev rIn0 (c : Dev nD) : Mat 64 64 := V c main_arg5

/-- The hidden layer of the arrays the first region finds. -/
def G0 (c : Dev nD) : S50000x64.Idx → EReal :=
  hidden (aggIn0 V c) (featIn0 V c) (wIn0 V c) (rIn0 V c) (fun q => biasIn0 V c (ix2 (0 : Fin 1) q))

/-- The point's blocks, by their literal types. -/
abbrev aggBlk0 (c : Dev nD) (t : Fin cfg0.N) : Vec Ideal S5000x64 .f32 := iblk0 V c 0 t
abbrev featBlk0 (c : Dev nD) (t : Fin cfg0.N) : Vec Ideal S5000x64 .f32 := iblk0 V c 1 t
abbrev wBlk0 (c : Dev nD) (t : Fin cfg0.N) : Vec Ideal S64x64 .f32 := iblk0 V c 2 t
abbrev biasBlk0 (c : Dev nD) (t : Fin cfg0.N) : Vec Ideal S1x64 .f32 := iblk0 V c 3 t
abbrev rBlk0 (c : Dev nD) (t : Fin cfg0.N) : Vec Ideal S64x64 .f32 := iblk0 V c 4 t

/-- What point `t` writes back is block `t` of the layer of the arrays the region finds: rows
    `5000 t … 5000 t + 4999`, each a function of the same row of the two feature arrays and of the whole weights. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts0 t
  funext j
  show k0_pay1 (F := Ideal) (aggBlk0 V c t) (featBlk0 V c t) (wBlk0 V c t) (rBlk0 V c t) (biasBlk0 V c t) j
    = G0 V c (((cfg0.win 5).blk t).view.emb j)
  obtain ⟨p, q, rfl⟩ : ∃ (p : Fin 5000) (q : Fin 64), j = ix2 p q := ⟨j 0, j 1, eq_ix2 j⟩
  have ht : t.val < 10 := lt_of_lt_of_eq (t.isLt : t.val < grid0.N) N_0
  have hemb : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hemb]
  unfold G0
  have h0 : ∀ k : Fin 64, aggBlk0 V c t (ix2 p k)
      = aggIn0 V c (ix2 (⟨t.val * 5000 + p.val, by omega⟩ : Fin 50000) k) := fun k => by
    show V c main_v22 (((cfg0.win 0).blk t).view.emb (ix2 p k)) = V c main_v22 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ k : Fin 64, featBlk0 V c t (ix2 p k)
      = featIn0 V c (ix2 (⟨t.val * 5000 + p.val, by omega⟩ : Fin 50000) k) := fun k => by
    show V c main_arg0 (((cfg0.win 1).blk t).view.emb (ix2 p k)) = V c main_arg0 (ix2 _ k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  have h2 : wBlk0 V c t = wIn0 V c := funext fun y => by
    show V c main_arg3 (((cfg0.win 2).blk t).view.emb y) = V c main_arg3 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have h3 : biasBlk0 V c t = biasIn0 V c := funext fun y => by
    show V c main_v23 (((cfg0.win 3).blk t).view.emb y) = V c main_v23 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  have h4 : rBlk0 V c t = rIn0 V c := funext fun y => by
    show V c main_arg5 (((cfg0.win 4).blk t).view.emb y) = V c main_arg5 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  exact block0_eq (aggIn0 V c) (featIn0 V c) (wIn0 V c) (rIn0 V c) (biasIn0 V c)
    (aggBlk0 V c t) (featBlk0 V c t) (wBlk0 V c t) (rBlk0 V c t) (biasBlk0 V c t) p q
    (⟨t.val * 5000 + p.val, by omega⟩ : Fin 50000) h0 h1 h2 h4 h3

/-- An index of the array is in point `t`'s block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- The ten blocks of 5000 rows cover the 50000 rows: row `r` is in the block of point `r / 5000`. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < grid0.N := by rw [N_0]; omega
  obtain ⟨-, -, -, -, -, -, -, -, -, -, e50, e51⟩ := idx_facts0 ⟨(i 0).val / 5000, hN⟩
  refine ⟨⟨(i 0).val / 5000, hN⟩, flush0_5 _, ?_⟩
  rw [mem_blk0]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    have e : win0_5.index ⟨(i 0).val / 5000, hN⟩ (0 : Fin 2) = (i 0).val / 5000 := e50
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- The region's result array after its run: the layer of the arrays the region found. -/
theorem final0 (c : Dev nD) : (dat0 V c).arrAt 5 cfg0.N = G0 V c :=
  (dat0 V c).arrAt_eq_of_cover 5 (G0 V c) (fun t _ => flushed0 V c t) cover0

end Cert.KernelIdeal.Layers

end
-- ==== Proof.OutputRegion.lean ====
/-
  The second pallas_call's result array, as one function of the arrays the call finds.

  The call walks ten grid points; point `t` stages rows `5000 t … 5000 t + 4999` of the averaged neighbour
  features and of the nodes' own features, the weights and the bias whole, and writes back the same rows of the
  result. Since a row of the layer depends only on the same row of the two feature arrays, what point `t` writes
  back is block `t` of ONE whole-array function, the output layer `G1` of the arrays as the call finds them; the
  ten blocks cover the 50000 rows; so the result array ends holding `G1` (`final1`).
-/
import proofs.«104332_j45724221833421_1_alg».proof.Proof.Gen.KernelIdeal.Frame
import proofs.«104332_j45724221833421_1_alg».proof.Proof.LibSageLayer
import proofs.«104332_j45724221833421_1_alg».proof.Proof.LibPlainDot
import proofs.«104332_j45724221833421_1_alg».proof.Proof.LayerBodies
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.DenseLayer Cert.SageLayer

variable (V : (c : Dev nD) → (b : Ref sig .tc) → Buf (Elt Ideal) ((c : Thread nD τ).loc b))

/-- The printed index maps, decided over the grid: the two feature windows move with the output window, one block of
    rows per point; the weights and the bias stay at block zero. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the region finds, by their literal types: the averaged neighbour features, the nodes' own features,
    the two weight matrices and the bias row. -/
abbrev aggIn1 (c : Dev nD) : Mat 50000 64 := V c main_v47
abbrev featIn1 (c : Dev nD) : Mat 50000 64 := V c main_v24
abbrev wIn1 (c : Dev nD) : Mat 64 64 := V c main_arg6
abbrev biasIn1 (c : Dev nD) : Mat 1 64 := V c main_v48
abbrev rIn1 (c : Dev nD) : Mat 64 64 := V c main_arg8

/-- The output layer of the arrays the second region finds. -/
def G1 (c : Dev nD) : S50000x64.Idx → EReal :=
  output (aggIn1 V c) (featIn1 V c) (wIn1 V c) (rIn1 V c) (fun q => biasIn1 V c (ix2 (0 : Fin 1) q))

/-- The point's blocks, by their literal types. -/
abbrev aggBlk1 (c : Dev nD) (t : Fin cfg1.N) : Vec Ideal S5000x64 .f32 := iblk1 V c 0 t
abbrev featBlk1 (c : Dev nD) (t : Fin cfg1.N) : Vec Ideal S5000x64 .f32 := iblk1 V c 1 t
abbrev wBlk1 (c : Dev nD) (t : Fin cfg1.N) : Vec Ideal S64x64 .f32 := iblk1 V c 2 t
abbrev biasBlk1 (c : Dev nD) (t : Fin cfg1.N) : Vec Ideal S1x64 .f32 := iblk1 V c 3 t
abbrev rBlk1 (c : Dev nD) (t : Fin cfg1.N) : Vec Ideal S64x64 .f32 := iblk1 V c 4 t

/-- What point `t` writes back is block `t` of the layer of the arrays the region finds: rows
    `5000 t … 5000 t + 4999`, each a function of the same row of the two feature arrays and of the whole weights. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts1 t
  funext j
  show k1_pay1 (F := Ideal) (aggBlk1 V c t) (featBlk1 V c t) (wBlk1 V c t) (rBlk1 V c t) (biasBlk1 V c t) j
    = G1 V c (((cfg1.win 5).blk t).view.emb j)
  obtain ⟨p, q, rfl⟩ : ∃ (p : Fin 5000) (q : Fin 64), j = ix2 p q := ⟨j 0, j 1, eq_ix2 j⟩
  have ht : t.val < 10 := lt_of_lt_of_eq (t.isLt : t.val < grid1.N) N_1
  have hemb : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  rw [hemb]
  unfold G1
  have h0 : ∀ k : Fin 64, aggBlk1 V c t (ix2 p k)
      = aggIn1 V c (ix2 (⟨t.val * 5000 + p.val, by omega⟩ : Fin 50000) k) := fun k => by
    show V c main_v47 (((cfg1.win 0).blk t).view.emb (ix2 p k)) = V c main_v47 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ k : Fin 64, featBlk1 V c t (ix2 p k)
      = featIn1 V c (ix2 (⟨t.val * 5000 + p.val, by omega⟩ : Fin 50000) k) := fun k => by
    show V c main_v24 (((cfg1.win 1).blk t).view.emb (ix2 p k)) = V c main_v24 (ix2 _ k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  have h2 : wBlk1 V c t = wIn1 V c := funext fun y => by
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have h3 : biasBlk1 V c t = biasIn1 V c := funext fun y => by
    show V c main_v48 (((cfg1.win 3).blk t).view.emb y) = V c main_v48 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  have h4 : rBlk1 V c t = rIn1 V c := funext fun y => by
    show V c main_arg8 (((cfg1.win 4).blk t).view.emb y) = V c main_arg8 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  exact block1_eq (aggIn1 V c) (featIn1 V c) (wIn1 V c) (rIn1 V c) (biasIn1 V c)
    (aggBlk1 V c t) (featBlk1 V c t) (wBlk1 V c t) (rBlk1 V c t) (biasBlk1 V c t) p q
    (⟨t.val * 5000 + p.val, by omega⟩ : Fin 50000) h0 h1 h2 h4 h3

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v49).slice (win1_5.rect t)).set ↔ _
  rw [View.set_slice_whole, Rect.mem_set_unit]
  exact Iff.rfl

/-- The ten blocks of 5000 rows cover the 50000 rows: row `r` is in the block of point `r / 5000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < grid1.N := by rw [N_1]; omega
  obtain ⟨-, -, -, -, -, -, -, -, -, -, e50, e51⟩ := idx_facts1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    have e : win1_5.index ⟨(i 0).val / 5000, hN⟩ (0 : Fin 2) = (i 0).val / 5000 := e50
    omega
  | ⟨1, _⟩ =>
    show win1_5.index ⟨(i 0).val / 5000, hN⟩ (1 : Fin 2) * 64 ≤ (i 1).val
      ∧ (i 1).val < win1_5.index ⟨(i 0).val / 5000, hN⟩ (1 : Fin 2) * 64 + 64
    omega

/-- The region's result array after its run: the layer of the arrays the region found. -/
theorem final1 (c : Dev nD) : (dat1 V c).arrAt 5 cfg1.N = G1 V c :=
  (dat1 V c).arrAt_eq_of_cover 5 (G1 V c) (fun t _ => flushed1 V c t) cover1

end Cert.KernelIdeal.Layers

end
-- ==== Proof.SageNetwork.lean ====
/-
  Two layers of the neighbourhood-averaging network, composed.

  The hidden features are the hidden layer of the input features and of their neighbourhood means; the output is the
  output layer of the hidden features and of THEIR neighbourhood means, over a second edge list. The averaging itself
  is a parameter `agg`: both programs compute it with the same host operations, and nothing here looks inside it.
-/
import proofs.«104332_j45724221833421_1_alg».proof.Proof.LibSageLayer

noncomputable section

namespace Cert.SageLayer

open Idealize.ShloMosaic Idealize.ShloMosaic.ValueIdx Cert.DenseLayer

variable {n K : ℕ} {E : Type}

/-- The hidden features: the hidden layer of the means `agg x e0` and of `x` itself. -/
def hiddenFeatures (agg : Mat n K → E → Mat n K) (x : Mat n K) (e0 : E) (w1 r1 : Mat K K) (b1 : Fin K → EReal) : Mat n K :=
  hidden (agg x e0) x w1 r1 b1

/-- The network's output: the output layer of the hidden features and of their means over the second edge list. -/
def network (agg : Mat n K → E → Mat n K) (x : Mat n K) (e0 e1 : E) (w1 r1 w2 r2 : Mat K K)
    (b1 b2 : Fin K → EReal) : Mat n K :=
  output (agg (hiddenFeatures agg x e0 w1 r1 b1) e1) (hiddenFeatures agg x e0 w1 r1 b1) w2 r2 b2

end Cert.SageLayer

end
-- ==== Proof.KernelValue.lean ====
/-
  What the idealized kernel program's result array holds after its run, as one function of the argument arrays.

  @main is a host stretch, a pallas_call, a second host stretch, a second pallas_call. Each host stretch computes,
  from a feature table and an edge list, the mean over in-neighbours (`meanAgg`: a gather along the source indices,
  a scatter-add into the target nodes, a count of in-edges by a scatter-add of ones, a division by the count clamped
  at one) and sets a bias vector as a row; it writes no argument. The first pallas_call leaves the hidden layer of
  what it finds, the second the output layer of what it finds (HiddenRegion, OutputRegion). Read back through the
  buffer contents at each boundary, the result array is the two-layer network of the arguments, with `meanAgg` as
  its averaging (`result_eq`). `meanAgg` is carried whole: no step opens it.
-/
import proofs.«104332_j45724221833421_1_alg».proof.Proof.HiddenRegion
import proofs.«104332_j45724221833421_1_alg».proof.Proof.OutputRegion
import proofs.«104332_j45724221833421_1_alg».proof.Proof.SageNetwork
import Idealize.ShloMosaic.Lib.ValueLayout
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Idealize.ShloMosaic.StableHlo
open Cert.DenseLayer Cert.SageLayer

/-- The mean over in-neighbours, as the host computes it from a feature table and an edge list: the source indices
    (row 0, a negative one wrapped once by the table's height) gather rows of the table; the rows are summed into
    their target nodes (row 1); a table of ones summed the same way counts each node's in-edges; the sums are
    divided by the counts clamped at one from below. Carried as one function: nothing here opens it. -/
def meanAgg {F : FTy → Type} [FloatOps F] (feat : (⟨S50000x64, .f32⟩ : BufTy).Contents (Elt F))
    (ei : (⟨S2x1600000, .i32⟩ : BufTy).Contents (Elt F)) : (⟨S50000x64, .f32⟩ : BufTy).Contents (Elt F) :=
  Host.divf
    (Host.scatterAdd scatter_S50000x64_S1600000x1_S1600000x64_1_0_0_1
      (broadcastInDim S50000x64 ![] bcast_S_S50000x64 (constant S_ .f32 0x00000000#32))
      (broadcastInDim S1600000x1 ![0] bcast_S1600000_S1600000x1_0
        (shapeCast _ (extractStridedSlice S1x1600000 ![1, 0] ei slices_S2x1600000_S1x1600000_1_0) shapeCasts_S1x1600000_S1600000))
      (Host.gather gather_S50000x64_S1600000x1_S1600000x64_1_0_n_n_0_1_164 feat
        (broadcastInDim S1600000x1 ![0] bcast_S1600000_S1600000x1_0
          (select
            (cmpi .slt
              (shapeCast _ (extractStridedSlice S1x1600000 ![0, 0] ei slices_S2x1600000_S1x1600000_0_0) shapeCasts_S1x1600000_S1600000)
              (broadcastInDim S1600000 ![] bcast_S_S1600000 (constantI S_ 32 0#32)))
            (addi
              (shapeCast _ (extractStridedSlice S1x1600000 ![0, 0] ei slices_S2x1600000_S1x1600000_0_0) shapeCasts_S1x1600000_S1600000)
              (broadcastInDim S1600000 ![] bcast_S_S1600000 (constantI S_ 32 50000#32)))
            (shapeCast _ (extractStridedSlice S1x1600000 ![0, 0] ei slices_S2x1600000_S1x1600000_0_0) shapeCasts_S1x1600000_S1600000)))))
    (broadcastInDim S50000x64 ![0, 1] bcast_S50000x1_S50000x64_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0
              (shapeCast _ (extractStridedSlice S1x1600000 ![1, 0] ei slices_S2x1600000_S1x1600000_1_0) shapeCasts_S1x1600000_S1600000))
            (broadcastInDim S1600000 ![] bcast_S_S1600000 (constant S_ .f32 0x3F800000#32)))
          (broadcastInDim S50000 ![] bcast_S_S50000 (constant S_ .f32 0x3F800000#32)))))

variable (m : (ℓ : Loc nD τ sig) → Buf (Elt Ideal) ℓ) (ρ : Dev nD → PrngReg)

/-- An edge list: two rows of node indices. -/
abbrev Edges : Type := (⟨S2x1600000, .i32⟩ : BufTy).Contents (Elt Ideal)

/-- The mean over in-neighbours at the ideal values, between feature matrices. -/
abbrev agg : Mat 50000 64 → Edges → Mat 50000 64 := fun f e => meanAgg (F := Ideal) f e

/-! ## What the first region finds: the first host stretch read back to the arguments -/

/-- The first region's neighbour operand is the mean over in-neighbours of the input features along the first edge
    list. -/
theorem entry0_agg (c : Dev nD) : W1 m ρ c (Proc.devRef .tc main_v22) = meanAgg (m ((c.tc : Thread nD τ).loc main_arg0)) (m ((c.tc : Thread nD τ).loc main_arg1)) := by
  show StableHlo.after hostOps0 (W0 m ρ c) (Proc.devRef .tc main_v22) = _
  after_results_simp
  rfl

/-- Its bias operand is the first bias vector set as a row. -/
theorem entry0_bias (c : Dev nD) :
    W1 m ρ c (Proc.devRef .tc main_v23) = shapeCast S1x64 (m ((c.tc : Thread nD τ).loc main_arg4)) shapeCasts_S64_S1x64 := by
  show StableHlo.after hostOps0 (W0 m ρ c) (Proc.devRef .tc main_v23) = _
  after_results_simp
  rfl

/-- No operation of the first stretch writes the input features. -/
theorem entry0_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl

/-- Nor the second edge list. -/
theorem entry0_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl

/-- Nor the first layer's neighbour weights. -/
theorem entry0_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl

/-- Nor the first layer's root weights. -/
theorem entry0_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl

/-- Nor the second layer's neighbour weights. -/
theorem entry0_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl

/-- Nor the second bias vector. -/
theorem entry0_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-- Nor the second layer's root weights. -/
theorem entry0_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl

/-! ## What the first region leaves -/

/-- The bias row read at a column is the bias vector there. -/
theorem bias_row (b : (⟨S64, .f32⟩ : BufTy).Contents (Elt Ideal)) :
    (fun q : Fin 64 => shapeCast S1x64 b shapeCasts_S64_S1x64 (ix2 (0 : Fin 1) q)) = fun q => b (ix1 q) :=
  funext fun q => shapeCast_a_1a_apply b shapeCasts_S64_S1x64 0 q

/-- After the first region its result array holds the hidden features of the arguments. -/
theorem mid_hidden (c : Dev nD) :
    W2 m ρ c (Proc.devRef .tc main_v24)
      = hiddenFeatures agg (m ((c.tc : Thread nD τ).loc main_arg0)) (m ((c.tc : Thread nD τ).loc main_arg1))
          (m ((c.tc : Thread nD τ).loc main_arg3)) (m ((c.tc : Thread nD τ).loc main_arg5)) (fun q => m ((c.tc : Thread nD τ).loc main_arg4) (ix1 q)) := by
  have hA : aggIn0 (V1 m ρ) c = meanAgg (m ((c.tc : Thread nD τ).loc main_arg0)) (m ((c.tc : Thread nD τ).loc main_arg1)) := entry0_agg m ρ c
  have hX : featIn0 (V1 m ρ) c = m ((c.tc : Thread nD τ).loc main_arg0) := entry0_arg0 m ρ c
  have hW : wIn0 (V1 m ρ) c = m ((c.tc : Thread nD τ).loc main_arg3) := entry0_arg3 m ρ c
  have hR : rIn0 (V1 m ρ) c = m ((c.tc : Thread nD τ).loc main_arg5) := entry0_arg5 m ρ c
  have hB : biasIn0 (V1 m ρ) c = shapeCast S1x64 (m ((c.tc : Thread nD τ).loc main_arg4)) shapeCasts_S64_S1x64 := entry0_bias m ρ c
  refine ((W2_arr m ρ c 5).trans (final0 (V1 m ρ) c)).trans ?_
  unfold G0 hiddenFeatures
  rw [hA, hX, hW, hR, hB, bias_row]

/-- The first region writes none of the buffers below: each keeps what the first stretch left, its launch contents. -/
theorem mid_arg2 (c : Dev nD) : W2 m ρ c (Proc.devRef .tc main_arg2) = m ((c.tc : Thread nD τ).loc main_arg2) :=
  (W2_of_ne m ρ c main_arg2 (by decide)).trans (entry0_arg2 m ρ c)
theorem mid_arg6 (c : Dev nD) : W2 m ρ c (Proc.devRef .tc main_arg6) = m ((c.tc : Thread nD τ).loc main_arg6) :=
  (W2_of_ne m ρ c main_arg6 (by decide)).trans (entry0_arg6 m ρ c)
theorem mid_arg7 (c : Dev nD) : W2 m ρ c (Proc.devRef .tc main_arg7) = m ((c.tc : Thread nD τ).loc main_arg7) :=
  (W2_of_ne m ρ c main_arg7 (by decide)).trans (entry0_arg7 m ρ c)
theorem mid_arg8 (c : Dev nD) : W2 m ρ c (Proc.devRef .tc main_arg8) = m ((c.tc : Thread nD τ).loc main_arg8) :=
  (W2_of_ne m ρ c main_arg8 (by decide)).trans (entry0_arg8 m ρ c)

/-! ## What the second region finds: the second host stretch read back -/

/-- The second region's neighbour operand is the mean over in-neighbours of the hidden features along the second
    edge list. -/
theorem entry1_agg (c : Dev nD) :
    W3 m ρ c (Proc.devRef .tc main_v47)
      = meanAgg (W2 m ρ c (Proc.devRef .tc main_v24)) (W2 m ρ c (Proc.devRef .tc main_arg2)) := by
  show StableHlo.after hostOps1 (W2 m ρ c) (Proc.devRef .tc main_v47) = _
  after_results_simp
  rfl

/-- Its bias operand is the second bias vector set as a row. -/
theorem entry1_bias (c : Dev nD) :
    W3 m ρ c (Proc.devRef .tc main_v48) = shapeCast S1x64 (W2 m ρ c (Proc.devRef .tc main_arg7)) shapeCasts_S64_S1x64 := by
  show StableHlo.after hostOps1 (W2 m ρ c) (Proc.devRef .tc main_v48) = _
  after_results_simp
  rfl

/-- No operation of the second stretch writes the hidden features. -/
theorem entry1_hidden (c : Dev nD) : W3 m ρ c (Proc.devRef .tc main_v24) = W2 m ρ c (Proc.devRef .tc main_v24) := by
  show StableHlo.after hostOps1 (W2 m ρ c) (Proc.devRef .tc main_v24) = _
  after_results_simp <;> rfl

/-- Nor the second layer's neighbour weights. -/
theorem entry1_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl

/-- Nor the second layer's root weights. -/
theorem entry1_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl

/-! ## The result -/

/-- After the run the result array holds the network's output of the arguments. -/
theorem result_eq (c : Dev nD) :
    W4 m ρ c (Proc.devRef .tc main_v49)
      = network agg (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6)) (m ((c.tc : Thread nD τ).loc main_arg8))
          (fun q => m ((c.tc : Thread nD τ).loc main_arg4) (ix1 q)) (fun q => m ((c.tc : Thread nD τ).loc main_arg7) (ix1 q)) := by
  have hH := mid_hidden m ρ c
  have hA : aggIn1 (V3 m ρ) c = meanAgg (hiddenFeatures agg (m ((c.tc : Thread nD τ).loc main_arg0)) (m ((c.tc : Thread nD τ).loc main_arg1))
      (m ((c.tc : Thread nD τ).loc main_arg3)) (m ((c.tc : Thread nD τ).loc main_arg5)) (fun q => m ((c.tc : Thread nD τ).loc main_arg4) (ix1 q))) (m ((c.tc : Thread nD τ).loc main_arg2)) :=
    (entry1_agg m ρ c).trans (by rw [hH, mid_arg2])
  have hX : featIn1 (V3 m ρ) c = hiddenFeatures agg (m ((c.tc : Thread nD τ).loc main_arg0)) (m ((c.tc : Thread nD τ).loc main_arg1))
      (m ((c.tc : Thread nD τ).loc main_arg3)) (m ((c.tc : Thread nD τ).loc main_arg5)) (fun q => m ((c.tc : Thread nD τ).loc main_arg4) (ix1 q)) :=
    (entry1_hidden m ρ c).trans hH
  have hW : wIn1 (V3 m ρ) c = m ((c.tc : Thread nD τ).loc main_arg6) := (entry1_arg6 m ρ c).trans (mid_arg6 m ρ c)
  have hR : rIn1 (V3 m ρ) c = m ((c.tc : Thread nD τ).loc main_arg8) := (entry1_arg8 m ρ c).trans (mid_arg8 m ρ c)
  have hB : biasIn1 (V3 m ρ) c = shapeCast S1x64 (m ((c.tc : Thread nD τ).loc main_arg7)) shapeCasts_S64_S1x64 :=
    (entry1_bias m ρ c).trans (by rw [mid_arg7])
  refine ((W4_arr m ρ c 5).trans (final1 (V3 m ρ) c)).trans ?_
  unfold G1 network
  rw [hA, hX, hW, hR, hB, bias_row]

end Cert.KernelIdeal.Layers

end
-- ==== Proof.ReferenceValue.lean ====
/-
  What the idealized reference computes, as the same two-layer network.

  The reference is a host program: per layer the mean over in-neighbours (a gather, two scatter-adds, a clamped
  division), two `dot_general` products, the bias row broadcast and added BEFORE the root product's sum is added,
  then a maximum against zero (layer one) or a division by the row's Euclidean length clamped from below (layer two;
  the sum of squares a host `reduce` started from zero). Read at an index through the generated one-operation lemmas,
  layer one is `hidden` and layer two `output` of LibSageLayer, up to the order of the three summands — which does
  not matter on the extended reals (`pre_bias_first`). The averaging's operations are never opened: they enter only
  as the function `agg`, applied first to the input and then to the hidden features (`second_agg`).
-/
import proofs.«104332_j45724221833421_1_alg».proof.Proof.Gen.ReferenceIdeal.Read
import proofs.«104332_j45724221833421_1_alg».proof.Proof.SageNetwork
import Idealize.ShloMosaic.Lib.ValueIdx
import Idealize.ShloMosaic.PureOps.Ideal.Laws

set_option maxRecDepth 16384

noncomputable section

namespace Cert.ReferenceIdeal.Layers

open Cert.ReferenceIdeal Cert.ReferenceIdeal.Read Idealize.ShloMosaic Idealize.ShloMosaic.TcCoe Idealize.ShloMosaic.ValueIdx
open Cert.DenseLayer Cert.SageLayer

/-! ## The indices the products and the broadcasts read, by coordinates -/

theorem lidx23 (p : Fin 50000) (q k : Fin 64) : lidx_main_v23 (ix2 p q) k = ix2 p k :=
  funext fun a => Fin.ext (by
    match a with
    | ⟨0, _⟩ => rfl
    | ⟨1, _⟩ => rfl)
theorem ridx23 (p : Fin 50000) (q k : Fin 64) : ridx_main_v23 (ix2 p q) k = ix2 k q :=
  funext fun a => Fin.ext (by
    match a with
    | ⟨0, _⟩ => rfl
    | ⟨1, _⟩ => rfl)
theorem lidx27 (p : Fin 50000) (q k : Fin 64) : lidx_main_v27 (ix2 p q) k = ix2 p k :=
  funext fun a => Fin.ext (by
    match a with
    | ⟨0, _⟩ => rfl
    | ⟨1, _⟩ => rfl)
theorem ridx27 (p : Fin 50000) (q k : Fin 64) : ridx_main_v27 (ix2 p q) k = ix2 k q :=
  funext fun a => Fin.ext (by
    match a with
    | ⟨0, _⟩ => rfl
    | ⟨1, _⟩ => rfl)
theorem lidx53 (p : Fin 50000) (q k : Fin 64) : lidx_main_v53 (ix2 p q) k = ix2 p k :=
  funext fun a => Fin.ext (by
    match a with
    | ⟨0, _⟩ => rfl
    | ⟨1, _⟩ => rfl)
theorem ridx53 (p : Fin 50000) (q k : Fin 64) : ridx_main_v53 (ix2 p q) k = ix2 k q :=
  funext fun a => Fin.ext (by
    match a with
    | ⟨0, _⟩ => rfl
    | ⟨1, _⟩ => rfl)
theorem lidx57 (p : Fin 50000) (q k : Fin 64) : lidx_main_v57 (ix2 p q) k = ix2 p k :=
  funext fun a => Fin.ext (by
    match a with
    | ⟨0, _⟩ => rfl
    | ⟨1, _⟩ => rfl)
theorem ridx57 (p : Fin 50000) (q k : Fin 64) : ridx_main_v57 (ix2 p q) k = ix2 k q :=
  funext fun a => Fin.ext (by
    match a with
    | ⟨0, _⟩ => rfl
    | ⟨1, _⟩ => rfl)
theorem bias_idx1 (p : Fin 50000) (q : Fin 64) : idx_main_v24 (idx_main_v25 (ix2 p q)) = ix1 q :=
  funext fun a => Fin.ext (by
    match a with
    | ⟨0, _⟩ => rfl)
theorem bias_idx2 (p : Fin 50000) (q : Fin 64) : idx_main_v54 (idx_main_v55 (ix2 p q)) = ix1 q :=
  funext fun a => Fin.ext (by
    match a with
    | ⟨0, _⟩ => rfl)
theorem norm_idx (p : Fin 50000) (q k : Fin 64) :
    idx_main_call1_v1 (idx_main_call1_v2 (idx_main_v62 (ix2 p q))) k = ix2 p k :=
  funext fun a => Fin.ext (by
    match a with
    | ⟨0, _⟩ => rfl
    | ⟨1, _⟩ => rfl)

variable (x0 : (⟨S50000x64, .f32⟩ : BufTy).Contents (Elt Ideal)) (x1 x2 : (⟨S2x1600000, .i32⟩ : BufTy).Contents (Elt Ideal))
  (x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 : (⟨S64x64, .f32⟩ : BufTy).Contents (Elt Ideal))

/-- The reference's hidden features: its products, bias and root branch summed in its own order, clamped at zero, are
    the hidden layer of its neighbourhood means and of the input (the bias added before the root branch:
    `pre_bias_first`). -/
theorem hidden_stage :
    val_main_v29 (F := Ideal) x0 x1 x3 x4 x5
      = hidden (val_main_v22 (F := Ideal) x0 x1) x0 x3 x5 (fun q => x4 (ix1 q)) := by
  funext i
  obtain ⟨p, q, rfl⟩ : ∃ (p : Fin 50000) (q : Fin 64), i = ix2 p q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  generalize val_main_v22 (F := Ideal) x0 x1 = A
  simp only [lidx23, ridx23, lidx27, ridx27, bias_idx1]
  exact congrArg (fun z => max z (Ideal.ofBits .f32 0x00000000#32))
    (pre_bias_first A x0 x3 x5 (fun q => x4 (ix1 q)) p q)

/-- A row of the reference's second layer before its normalisation. -/
theorem second_row (p : Fin 50000) (j : Fin 64) :
    val_main_v58 (F := Ideal) x0 x1 x2 x3 x4 x5 x6 x7 x8 (ix2 p j)
      = pre (val_main_v52 (F := Ideal) x0 x1 x2 x3 x4 x5) (val_main_v29 (F := Ideal) x0 x1 x3 x4 x5) x6 x8
          (fun q => x7 (ix1 q)) p j := by
  rw [val_main_v58_apply, val_main_v56_apply, val_main_v53_apply, val_main_v57_apply, val_main_v55_apply,
    val_main_v54_apply]
  generalize val_main_v52 (F := Ideal) x0 x1 x2 x3 x4 x5 = A
  generalize val_main_v29 (F := Ideal) x0 x1 x3 x4 x5 = H
  simp only [lidx53, ridx53, lidx57, ridx57, bias_idx2]
  exact pre_bias_first A H x6 x8 (fun q => x7 (ix1 q)) p j

/-- The reference's output: each entry of the second layer's row over the row's Euclidean length — the root of the
    sum of squares, the sum started from zero, clamped from below — is the output layer of its second neighbourhood
    means and of its hidden features. -/
theorem output_stage :
    val_main_v63 (F := Ideal) x0 x1 x2 x3 x4 x5 x6 x7 x8
      = output (val_main_v52 (F := Ideal) x0 x1 x2 x3 x4 x5) (val_main_v29 (F := Ideal) x0 x1 x3 x4 x5) x6 x8
          (fun q => x7 (ix1 q)) := by
  funext i
  obtain ⟨p, q, rfl⟩ : ∃ (p : Fin 50000) (q : Fin 64), i = ix2 p q := ⟨i 0, i 1, eq_ix2 i⟩
  rw [val_main_v63_apply, val_main_v62_apply, val_main_v61_apply, val_main_v60_apply, val_main_cst_10_apply,
    val_main_v59_apply, val_main_call1_v2_apply, val_main_call1_v1_apply, val_main_call1_cst_apply]
  have hrow := second_row x0 x1 x2 x3 x4 x5 x6 x7 x8 p
  have hsq : ∀ k : Fin 64,
      val_main_call1_v0 (F := Ideal) x0 x1 x2 x3 x4 x5 x6 x7 x8 (idx_main_call1_v1 (idx_main_call1_v2 (idx_main_v62 (ix2 p q))) k)
        = pre (val_main_v52 (F := Ideal) x0 x1 x2 x3 x4 x5) (val_main_v29 (F := Ideal) x0 x1 x3 x4 x5) x6 x8
              (fun q => x7 (ix1 q)) p k
          * pre (val_main_v52 (F := Ideal) x0 x1 x2 x3 x4 x5) (val_main_v29 (F := Ideal) x0 x1 x3 x4 x5) x6 x8
              (fun q => x7 (ix1 q)) p k := fun k => by
    rw [norm_idx, val_main_call1_v0_apply, hrow k]
    rfl
  rw [Finset.sum_congr rfl (fun k _ => hsq k), hrow q]
  generalize val_main_v52 (F := Ideal) x0 x1 x2 x3 x4 x5 = A
  generalize val_main_v29 (F := Ideal) x0 x1 x3 x4 x5 = H
  show Ideal.div _ (max (Ideal.sqrt (Ideal.ofBits .f32 0x00000000#32 + _)) (Ideal.ofBits .f32 0x2B8CBCCC#32)) = _
  rw [Ideal.ofBits_zero_f32, zero_add]
  rfl

/-! ## The two averagings are one function -/

/-- An edge list: two rows of node indices. -/
abbrev Edges : Type := (⟨S2x1600000, .i32⟩ : BufTy).Contents (Elt Ideal)

/-- The reference's mean over in-neighbours at the ideal values, between feature matrices: its first twenty-nine
    operations, as one function of a feature table and an edge list. -/
abbrev agg : Mat 50000 64 → Edges → Mat 50000 64 := fun f e => val_main_v22 (F := Ideal) f e

/-- The reference averages its hidden features with the same operations it averaged the input with: the second
    averaging is `agg` of the hidden features and the second edge list. Both sides are the same operations of the
    same operands once the stages' names are opened; the operations themselves stay closed. -/
theorem second_agg :
    val_main_v52 (F := Ideal) x0 x1 x2 x3 x4 x5 = agg (val_main_v29 (F := Ideal) x0 x1 x3 x4 x5) x2 := by
  unfold agg
  simp only [val_main_v52, val_main_v43, val_main_v40, val_main_v39, val_main_v38, val_main_v37, val_main_v36, val_main_c_5, val_main_v35, val_main_v34, val_main_c_4, val_main_v31, val_main_v30, val_main_v41, val_main_cst_6, val_main_v42, val_main_v33, val_main_v32, val_main_v51, val_main_v50, val_main_v49, val_main_v48, val_main_cst_9, val_main_v47, val_main_v46, val_main_v45, val_main_cst_8, val_main_v44, val_main_cst_7]
  generalize val_main_v29 (F := Ideal) x0 x1 x3 x4 x5 = H
  simp only [val_main_v22, val_main_v13, val_main_v10, val_main_v9, val_main_v8, val_main_v7, val_main_v6, val_main_c_0, val_main_v5, val_main_v4, val_main_c, val_main_v1, val_main_v0, val_main_v11, val_main_cst, val_main_v12, val_main_v3, val_main_v2, val_main_v21, val_main_v20, val_main_v19, val_main_v18, val_main_cst_3, val_main_v17, val_main_v16, val_main_v15, val_main_cst_2, val_main_v14, val_main_cst_1]

/-! ## The reference's result -/

/-- The reference's result is the two-layer network of its arguments, with its own averaging. -/
theorem result_eq :
    val_main_v63 (F := Ideal) x0 x1 x2 x3 x4 x5 x6 x7 x8
      = network agg x0 x1 x2 x3 x5 x6 x8 (fun q => x4 (ix1 q)) (fun q => x7 (ix1 q)) := by
  rw [output_stage, second_agg, hidden_stage]
  rfl

end Cert.ReferenceIdeal.Layers

end
-- ==== Proof.lean ====
/-
  Two layers of a neighbourhood-averaging graph network — a Pallas kernel per layer's dense half, the averaging on
  the host — against the plain jnp reference, equal over the extended reals.

  Per layer both programs average each node's in-neighbours' features with the same host operations (gather along
  the sources, scatter-add into the targets, divide by the in-degree clamped at one) and then form
  `mean · W + x · R + b`. The kernel adds the two products first and the bias last; the reference adds the bias to
  the neighbour product first. Addition of extended reals is commutative and associative, so the two agree with no
  finiteness assumption. Layer one clamps at zero on both sides; layer two divides each row by its Euclidean length
  clamped from below by the same constant on both sides, the kernel summing squares along the row in a vector
  reduction, the reference in a host reduction started from zero. At the ideal values a change of float format is
  the identity, so the kernel's bf16 operands are its f32 ones.

  KernelValue reads the kernel program's result array as `network agg …` of the arguments, ReferenceValue reads the
  reference's result as the same `network` with its own `agg`; the two averagings are one function (`agg_eq`: the
  same operations over records that differ only in the namespace they were printed in). The three frames are the
  generated ones (the reference's is its generated run with the result dropped); the ideal pass rewrote nothing, so
  `preserves` is trivial.
-/
import proofs.«104332_j45724221833421_1_alg».proof.Defs
import proofs.«104332_j45724221833421_1_alg».proof.Proof.Gen.Kernel
import proofs.«104332_j45724221833421_1_alg».proof.Proof.Gen.Kernel.Skeleton
import proofs.«104332_j45724221833421_1_alg».proof.Proof.Gen.Kernel.Launch
import proofs.«104332_j45724221833421_1_alg».proof.Proof.Gen.Kernel.Points
import proofs.«104332_j45724221833421_1_alg».proof.Proof.Gen.Kernel.Frame
import proofs.«104332_j45724221833421_1_alg».proof.Proof.Gen.KernelIdeal
import proofs.«104332_j45724221833421_1_alg».proof.Proof.Gen.KernelIdeal.Skeleton
import proofs.«104332_j45724221833421_1_alg».proof.Proof.Gen.KernelIdeal.Launch
import proofs.«104332_j45724221833421_1_alg».proof.Proof.Gen.KernelIdeal.Points
import proofs.«104332_j45724221833421_1_alg».proof.Proof.Gen.KernelIdeal.Frame
import proofs.«104332_j45724221833421_1_alg».proof.Proof.Gen.ReferenceIdeal
import proofs.«104332_j45724221833421_1_alg».proof.Proof.Gen.Pre_finite_inputs
import proofs.«104332_j45724221833421_1_alg».proof.Proof.Gen.ReferenceIdeal.Run
import proofs.«104332_j45724221833421_1_alg».proof.Proof.Gen.ReferenceIdeal.Read
import proofs.«104332_j45724221833421_1_alg».proof.Proof.KernelRun
import proofs.«104332_j45724221833421_1_alg».proof.Proof.KernelValue
import proofs.«104332_j45724221833421_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.DenseLayer Cert.SageLayer

/-- The two programs average with one function: the kernel program's host operations and the reference's are the
    same operations of the same operands; their dimension records are printed once per program and have the same
    fields. -/
theorem agg_eq : Cert.KernelIdeal.Layers.agg = Cert.ReferenceIdeal.Layers.agg := by
  funext f e
  show Cert.KernelIdeal.Layers.meanAgg (F := Ideal) f e = Cert.ReferenceIdeal.Read.val_main_v22 (F := Ideal) f e
  unfold Cert.KernelIdeal.Layers.meanAgg
  simp only [Cert.ReferenceIdeal.Read.val_main_v22, Cert.ReferenceIdeal.Read.val_main_v13, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v1, Cert.ReferenceIdeal.Read.val_main_v0, Cert.ReferenceIdeal.Read.val_main_v11, Cert.ReferenceIdeal.Read.val_main_cst, Cert.ReferenceIdeal.Read.val_main_v12, Cert.ReferenceIdeal.Read.val_main_v3, Cert.ReferenceIdeal.Read.val_main_v2, Cert.ReferenceIdeal.Read.val_main_v21, Cert.ReferenceIdeal.Read.val_main_v20, Cert.ReferenceIdeal.Read.val_main_v19, Cert.ReferenceIdeal.Read.val_main_v18, Cert.ReferenceIdeal.Read.val_main_cst_3, Cert.ReferenceIdeal.Read.val_main_v17, Cert.ReferenceIdeal.Read.val_main_v16, Cert.ReferenceIdeal.Read.val_main_v15, Cert.ReferenceIdeal.Read.val_main_cst_2, Cert.ReferenceIdeal.Read.val_main_v14, Cert.ReferenceIdeal.Read.val_main_cst_1]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network's output of the (agreeing) arguments in their result arrays. -/
theorem algebraic : Cert.algebraic_KernelIdeal_ReferenceIdeal := by
  intro m ρ m' ρ' _ hagree
  refine ⟨fun c => network Cert.KernelIdeal.Layers.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8))
      (fun q => m ((c.tc : Thread Cert.KernelIdeal.nD Cert.KernelIdeal.τ).loc Cert.KernelIdeal.main_arg4) (ix1 q)) (fun q => m ((c.tc : Thread Cert.KernelIdeal.nD Cert.KernelIdeal.τ).loc Cert.KernelIdeal.main_arg7) (ix1 q)), ?_, ?_⟩
  · exact (θ_run Cert.KernelIdeal.defs _ _).mono
      (fun r h c => ⟨(h c).1.trans (Cert.KernelIdeal.Layers.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v63_eq, Cert.ReferenceIdeal.Layers.result_eq, a0, a1, a2, a3, a4, a5, a6, a7, a8,
      agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
